-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S1x8192x256 : Shape := ⟨3, ![1, 8192, 256]⟩
abbrev S1x8192 : Shape := ⟨2, ![1, 8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S1x8192 : S_.BroadcastsInDim S1x8192 (![] : Fin 0 → Fin S1x8192.rank)
  reducesTo_S1x8192_S_d0_1 : S1x8192.ReducesTo [0, 1] S_

variable [Facts]

def fn {F : FTy → Type} [FloatOps F] (main_arg0 : FVec F S4096x256 .f32) (main_arg1 : FVec F S1x8192x256 .f32) (main_arg2 : FVec F S1x8192 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  main_v13
-- ==== Kernel.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S4096x1 : Shape := ⟨2, ![4096, 1]⟩
abbrev S4096 : Shape := ⟨1, ![4096]⟩
abbrev S256x256 : Shape := ⟨2, ![256, 256]⟩
abbrev S256x1 : Shape := ⟨2, ![256, 1]⟩
abbrev S256x8192 : Shape := ⟨2, ![256, 8192]⟩
abbrev S256 : Shape := ⟨1, ![256]⟩

abbrev nBuf : Space → Nat
  | .hbm => 7
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S4096x256, .f32⟩
  | .hbm, ⟨5, _⟩ => ⟨S4096x1, .f32⟩
  | .hbm, ⟨6, _⟩ => ⟨S4096, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S1x8192, .f32⟩
  | .local _ .vmem, ⟨4, _⟩ => ⟨S256x256, .f32⟩
  | .local _ .vmem, ⟨5, _⟩ => ⟨S256x256, .f32⟩
  | .local _ .vmem, ⟨6, _⟩ => ⟨S256x1, .f32⟩
  | .local _ .vmem, ⟨7, _⟩ => ⟨S256x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_call0_v1_1 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x8192x256_S8192x256 : S1x8192x256.ShapeCasts S8192x256
  shapeCasts_S4096x1_S4096 : S4096x1.ShapeCasts S4096
  inb_S256x256_S256x256_0_0 : ∀ a, (![0, 0] : Fin 2 → Nat) a + S256x256.size a ≤ S256x256.size a
  h_S256x256 : 0 < S256x256.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x8192_S1x8192_0_0 : ∀ a, (![0, 0] : Fin 2 → Nat) a + S1x8192.size a ≤ S1x8192.size a
  h_S1x8192 : 0 < S1x8192.numel
  broadcasts_S1x8192_S256x8192 : S1x8192.Broadcasts S256x8192
  reduces_S256x8192_S256 : S256x8192.Reduces [1] S256
  shapeCasts_S256_S256x1 : S256.ShapeCasts S256x1
  broadcasts_S256x1_S256x8192 : S256x1.Broadcasts S256x8192
  inb_S256x1_S256x1_0_0 : ∀ a, (![0, 0] : Fin 2 → Nat) a + S256x1.size a ≤ S256x1.size a
  h_S256x1 : 0 < S256x1.numel
  dot_S256x256_S8192x256_S256x8192_1_1_0_0_n_n_wf : DotDims.WF S256x256 S8192x256 S256x8192 [1] [1] [0] [0] [] []
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S256x8192 : Shape := ⟨2, ![256, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S256x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S4096x8192, .f32⟩
  | .hbm, ⟨43, _⟩ => ⟨S4096x8192, .f32⟩
  | .hbm, ⟨44, _⟩ => ⟨S4096x8192, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x8192, .f32⟩
  | .hbm, ⟨49, _⟩ => ⟨S4096x8192, .f32⟩
  | .hbm, ⟨50, _⟩ => ⟨S4096x8192, .f32⟩
  | .hbm, ⟨51, _⟩ => ⟨S_, .f32⟩
  | .hbm, ⟨52, _⟩ => ⟨S4096, .f32⟩
  | .hbm, ⟨53, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  shapeCasts_S1x8192x256_S8192x256 : S1x8192x256.ShapeCasts S8192x256
  transposes_S8192x256_S256x8192_1_0 : S8192x256.Transposes [1, 0] S256x8192
  bcast_S1x8192_S4096x8192_0_1 : S1x8192.BroadcastsInDim S4096x8192 (![0, 1] : Fin 2 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S_S4096 : S_.BroadcastsInDim S4096 (![] : Fin 0 → Fin S4096.rank)
  dot_S4096x256_S256x8192_S4096x8192_1_0_0_1_n_n_wf : DotDims.WF S4096x256 S256x8192 S4096x8192 [1] [0] [0] [1] [] []
  dot_S4096x8192_S8192x256_S4096x256_1_0_0_1_n_n_wf : DotDims.WF S4096x8192 S8192x256 S4096x256 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.SoftChoice.lean ====
/-
  The function both programs compute, written once over the extended reals.

  A row of scores s (one score per candidate point) is turned into weights that sum to one:
  the scores are measured from the row's largest entry, multiplied by a temperature that depends
  only on the row's spread (largest minus smallest entry, kept at least 0.001; the temperature is
  50 divided by that spread, kept between 50 and 5000), exponentiated, and divided by their sum.
  The two results of a row are the weighted mean of the scores themselves and the weighted mean of
  the candidate points.

  Two arrangements of the exponent occur. One subtracts the row's maximum first and multiplies by the
  temperature afterwards. The other multiplies first, subtracts the maximum of the multiplied row,
  and then subtracts once more the maximum of what is left (taken against minus infinity). They are
  the same function on rows of real numbers; that is proved elsewhere. Here both are only defined,
  and the whole-array results are stated over either arrangement E.
-/
import Idealize.ShloMosaic.PureOps.Ideal
import Idealize.ShloMosaic.Lib.ValueIdx
import Idealize.ShloMosaic.Lib.ValueLayout

noncomputable section

namespace Cert.SoftChoice

open Idealize.ShloMosaic Idealize.ShloMosaic.ValueIdx

/-! ## One row -/

section Row

variable {ι : Type} [Fintype ι]

/-- The largest entry of a row, starting from minus infinity. -/
def rowMax (s : ι → EReal) : EReal :=
  (Finset.univ : Finset ι).fold max (Ideal.ofBits .f32 0xFF800000#32) s

/-- The smallest entry of a row, starting from plus infinity. -/
def rowMin (s : ι → EReal) : EReal :=
  (Finset.univ : Finset ι).fold min (Ideal.ofBits .f32 0x7F800000#32) s

/-- The row's temperature: 50 over the spread (at least 0.001), kept between 50 and 5000. -/
def temperature (s : ι → EReal) : EReal :=
  min (Ideal.ofBits .f32 0x459C4000#32)
    (max (Ideal.ofBits .f32 0x42480000#32)
      (Ideal.div (Ideal.ofBits .f32 0x42480000#32)
        (max (rowMax s - rowMin s) (Ideal.ofBits .f32 0x3A83126F#32))))

/-- Unnormalised weights, the maximum subtracted BEFORE the temperature multiplies. -/
def expShiftThenScale (s : ι → EReal) (k : ι) : EReal :=
  Ideal.exp ((s k - rowMax s) * temperature s)

/-- Unnormalised weights, the temperature multiplying FIRST: the scaled row less its maximum, less
    the maximum (against minus infinity) of that difference. -/
def expScaleThenShift (s : ι → EReal) (k : ι) : EReal :=
  Ideal.exp ((s k * temperature s - rowMax (fun j => s j * temperature s))
    - max (Ideal.ofBits .f32 0xFF800000#32)
        (rowMax (fun k' => s k' * temperature s - rowMax (fun j => s j * temperature s))))

/-- Weights that sum to one: each entry over the row's sum. -/
def weights (e : ι → EReal) (k : ι) : EReal := Ideal.div (e k) (∑ k', e k')

end Row

/-! ## The arrays -/

/-- The query points, one per row. -/
abbrev SX : Shape := ⟨2, ![4096, 256]⟩
/-- The candidate points as given, under a leading axis of length one. -/
abbrev SY : Shape := ⟨3, ![1, 8192, 256]⟩
/-- The candidate points, one per row. -/
abbrev SYq : Shape := ⟨2, ![8192, 256]⟩
/-- One intercept per candidate point. -/
abbrev SB : Shape := ⟨2, ![1, 8192]⟩
/-- One value per query point, as a column and as a vector. -/
abbrev SVcol : Shape := ⟨2, ![4096, 1]⟩
abbrev SV : Shape := ⟨1, ![4096]⟩

/-- The candidate points with the leading axis dropped. -/
def squeeze (Y : FVec Ideal SY .f32) : FVec Ideal SYq .f32 :=
  fun q => Y (ix3 (0 : Fin 1) (⟨(q 0).val, idx2_lt0 q⟩ : Fin 8192) (⟨(q 1).val, idx2_lt1 q⟩ : Fin 256))

theorem squeeze_ix2 (Y : FVec Ideal SY .f32) (k : Fin 8192) (d : Fin 256) :
    squeeze Y (ix2 k d) = Y (ix3 (0 : Fin 1) k d) := rfl

/-- Reshaping [1, 8192, 256] to [8192, 256] is dropping the leading axis. -/
theorem shapeCast_eq_squeeze (Y : FVec Ideal SY .f32) (h : SY.ShapeCasts SYq) :
    shapeCast SYq Y h = squeeze Y := by
  funext q
  obtain ⟨k, d, rfl⟩ : ∃ (k : Fin 8192) (d : Fin 256), q = ix2 k d := ⟨q 0, q 1, eq_ix2 q⟩
  exact shapeCast_1ab_ab_apply Y h k d

/-- Row i's scores: the inner product of query i with each candidate, plus the candidate's intercept. -/
def scores (X : FVec Ideal SX .f32) (Yq : FVec Ideal SYq .f32) (B : FVec Ideal SB .f32)
    (i : Fin 4096) (k : Fin 8192) : EReal :=
  (∑ d : Fin 256, X (ix2 i d) * Yq (ix2 k d)) + B (ix2 (0 : Fin 1) k)

section Results

-- E is the arrangement of the exponent: either of the two above.
variable (E : (Fin 8192 → EReal) → Fin 8192 → EReal)

/-- Coordinate d of the weighted mean of the candidate points, for query i. -/
def choiceAt (X : FVec Ideal SX .f32) (Yq : FVec Ideal SYq .f32) (B : FVec Ideal SB .f32)
    (i : Fin 4096) (d : Fin 256) : EReal :=
  ∑ k : Fin 8192, weights (E (scores X Yq B i)) k * Yq (ix2 k d)

/-- The weighted mean of query i's scores. -/
def valueAt (X : FVec Ideal SX .f32) (Yq : FVec Ideal SYq .f32) (B : FVec Ideal SB .f32)
    (i : Fin 4096) : EReal :=
  ∑ k : Fin 8192, weights (E (scores X Yq B i)) k * scores X Yq B i k

/-- The weighted means of the candidate points, one row per query. -/
def choice (X : FVec Ideal SX .f32) (Yq : FVec Ideal SYq .f32) (B : FVec Ideal SB .f32) : FVec Ideal SX .f32 :=
  fun j => choiceAt E X Yq B (⟨(j 0).val, idx2_lt0 j⟩ : Fin 4096) (⟨(j 1).val, idx2_lt1 j⟩ : Fin 256)

/-- The weighted means of the scores, as a column. -/
def valueCol (X : FVec Ideal SX .f32) (Yq : FVec Ideal SYq .f32) (B : FVec Ideal SB .f32) : FVec Ideal SVcol .f32 :=
  fun j => valueAt E X Yq B (⟨(j 0).val, idx2_lt0 j⟩ : Fin 4096)

/-- The weighted means of the scores, as a vector. -/
def value (X : FVec Ideal SX .f32) (Yq : FVec Ideal SYq .f32) (B : FVec Ideal SB .f32) : FVec Ideal SV .f32 :=
  fun j => valueAt E X Yq B (⟨(j 0).val, (j 0).isLt⟩ : Fin 4096)

theorem choice_ix2 (X : FVec Ideal SX .f32) (Yq : FVec Ideal SYq .f32) (B : FVec Ideal SB .f32)
    (i : Fin 4096) (d : Fin 256) : choice E X Yq B (ix2 i d) = choiceAt E X Yq B i d := rfl

theorem valueCol_ix2 (X : FVec Ideal SX .f32) (Yq : FVec Ideal SYq .f32) (B : FVec Ideal SB .f32)
    (i : Fin 4096) (u : Fin 1) : valueCol E X Yq B (ix2 i u) = valueAt E X Yq B i := rfl

theorem value_ix1 (X : FVec Ideal SX .f32) (Yq : FVec Ideal SYq .f32) (B : FVec Ideal SB .f32)
    (i : Fin 4096) : value E X Yq B (ix1 i) = valueAt E X Yq B i := rfl

end Results

end Cert.SoftChoice

end
-- ==== Proof.LibKeepdims.lean ====
/-
  A column kept as a trailing axis of length one, and a row reduced along the lanes.

  A reduction along the second axis of an [a, b] array that keeps its dimension is printed in three
  steps: the reduction itself into [a], a cast of that vector to a column [a, 1], and a broadcast of
  the column back over [a, b]. Read at an index these are: entry i of the vector; entry (i, 0) of
  the column; and, for a row's maximum, minimum or sum, the fold or the sum over the row's b entries.
  Stated for any extents a and b, over indices given by their coordinates.
-/
import Idealize.ShloMosaic.Lib.ValueLayout
import Idealize.ShloMosaic.PureOps.Ideal.Laws

noncomputable section

namespace Cert.Keepdims

open Idealize.ShloMosaic Idealize.ShloMosaic.ValueIdx

variable {α : Type}

/-- A vector [a] cast to a column [a, 1] reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to a vector [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] broadcast over [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of [a, b] that reduces to i along the second axis with coordinate k there is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A maximum along the lanes, at row i: the fold of max over the row's entries from the initial value. -/
theorem laneMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  exact congrArg (fun f : Fin b → EReal => (Finset.univ : Finset (Fin b)).fold max (Ideal.ofBits .f32 acc) f)
    (funext fun k => congrArg src (lift_row h i k))

/-- A minimum along the lanes, at row i: the fold of min over the row's entries from the initial value. -/
theorem laneMin_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (i : Fin a) :
    multiReduction .minimumf [1] ⟨1, ![a]⟩ src acc h hφ hacc (ix1 i)
      = (Finset.univ : Finset (Fin b)).fold min (Ideal.ofBits .f32 acc) (fun k => src (ix2 i k)) := by
  refine (multiReduction_minimumf_eq_fold src acc h hφ hacc (ix1 i)).trans ?_
  refine (h.fold_filter_drop_single _ _ src (ix1 i)).trans ?_
  exact congrArg (fun f : Fin b → EReal => (Finset.univ : Finset (Fin b)).fold min (Ideal.ofBits .f32 acc) f)
    (funext fun k => congrArg src (lift_row h i k))

/-- A sum along the lanes, at row i: the sum of the row's entries. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  simp only [lift_row]

end Cert.Keepdims

end
-- ==== Proof.BlockProducts.lean ====
/-
  The body's two matrix products on one block of 256 query rows, read at an entry.

  The scores are queries times candidates contracted over the 256 coordinates; the choice is weights
  times candidates contracted over the 8192 candidates. Each, from a zero accumulator, is at an
  entry the plain sum over its one contracted axis of the products of the operands' entries.
-/
import proofs.«129252_g88089779241353_cont_9to1c4b_404_2_alg».proof.Proof.Gen.KernelIdeal.Skeleton
import Idealize.ShloMosaic.Lib.ValueIdx
import Idealize.ShloMosaic.PureOps.Ideal.Laws

noncomputable section

namespace Cert.KernelIdeal.BlockProducts

open Idealize.ShloMosaic Idealize.ShloMosaic.ValueIdx Cert.KernelIdeal Cert.KernelIdeal.Gen

/-! ## The two products, read at an entry -/

theorem lhsScores_0 (i : S256x8192.Idx) (q : dot_S256x256_S8192x256_S256x8192_1_1_0_0_n_n.contr.Idx) :
    (dot_S256x256_S8192x256_S256x8192_1_1_0_0_n_n.lhsIdx i q 0).val = (i 0).val := by
  unfold DotDims.lhsIdx
  rw [dif_neg (show ¬(0 : Fin S256x256.rank) ∈ dot_S256x256_S8192x256_S256x8192_1_1_0_0_n_n.lhsBatch by decide), dif_pos (show (0 : Fin S256x256.rank) ∈ dot_S256x256_S8192x256_S256x8192_1_1_0_0_n_n.lhsNonContracting by decide)]
  rfl
theorem lhsScores_1 (i : S256x8192.Idx) (q : dot_S256x256_S8192x256_S256x8192_1_1_0_0_n_n.contr.Idx) :
    (dot_S256x256_S8192x256_S256x8192_1_1_0_0_n_n.lhsIdx i q 1).val = (q ⟨0, by decide⟩).val :=
  dot_S256x256_S8192x256_S256x8192_1_1_0_0_n_n.lhsIdx_val_of_single rfl i q
theorem rhsScores_0 (i : S256x8192.Idx) (q : dot_S256x256_S8192x256_S256x8192_1_1_0_0_n_n.contr.Idx) :
    (dot_S256x256_S8192x256_S256x8192_1_1_0_0_n_n.rhsIdx i q 0).val = (i 1).val := by
  unfold DotDims.rhsIdx
  rw [dif_neg (show ¬(0 : Fin S8192x256.rank) ∈ dot_S256x256_S8192x256_S256x8192_1_1_0_0_n_n.rhsBatch by decide), dif_pos (show (0 : Fin S8192x256.rank) ∈ dot_S256x256_S8192x256_S256x8192_1_1_0_0_n_n.rhsNonContracting by decide)]
  rfl
theorem rhsScores_1 (i : S256x8192.Idx) (q : dot_S256x256_S8192x256_S256x8192_1_1_0_0_n_n.contr.Idx) :
    (dot_S256x256_S8192x256_S256x8192_1_1_0_0_n_n.rhsIdx i q 1).val = (q ⟨0, by decide⟩).val :=
  dot_S256x256_S8192x256_S256x8192_1_1_0_0_n_n.rhsIdx_val_of_single rfl i q

/-- Queries times candidates, contracted over the 256 coordinates, from a zero accumulator. -/
theorem scoresProduct_apply (x0 : FVec Ideal S256x256 .f32) (y : FVec Ideal S8192x256 .f32) (r : Fin 256) (k : Fin 8192) :
    matmul dot_S256x256_S8192x256_S256x8192_1_1_0_0_n_n none x0 y (constant (F := Ideal) S256x8192 .f32 0x00000000#32) (ix2 r k)
      = ∑ d : Fin 256, x0 (ix2 r d) * y (ix2 k d) := by
  simp only [matmul]
  rw [Ideal.matmul_constant_zero_apply, ← Equiv.sum_comp (contrEquiv1 dot_S256x256_S8192x256_S256x8192_1_1_0_0_n_n 256 rfl rfl).symm]
  refine Finset.sum_congr rfl fun d _ => ?_
  have hk := contrEquiv1_symm_val dot_S256x256_S8192x256_S256x8192_1_1_0_0_n_n 256 rfl rfl d
  have el : dot_S256x256_S8192x256_S256x8192_1_1_0_0_n_n.lhsIdx (ix2 r k) ((contrEquiv1 dot_S256x256_S8192x256_S256x8192_1_1_0_0_n_n 256 rfl rfl).symm d) = ix2 r d := funext fun a => Fin.ext (by
    match a with
    | ⟨0, _⟩ => exact lhsScores_0 _ _
    | ⟨1, _⟩ => exact (lhsScores_1 _ _).trans hk)
  have er : dot_S256x256_S8192x256_S256x8192_1_1_0_0_n_n.rhsIdx (ix2 r k) ((contrEquiv1 dot_S256x256_S8192x256_S256x8192_1_1_0_0_n_n 256 rfl rfl).symm d) = ix2 k d := funext fun a => Fin.ext (by
    match a with
    | ⟨0, _⟩ => exact rhsScores_0 _ _
    | ⟨1, _⟩ => exact (rhsScores_1 _ _).trans hk)
  rw [el, er]

theorem lhsChoice_0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
theorem lhsChoice_1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
theorem rhsChoice_0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
theorem rhsChoice_1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

/-- Weights times candidates, contracted over the 8192 candidates, from a zero accumulator. -/
theorem choiceProduct_apply (w : FVec Ideal S256x8192 .f32) (y : FVec Ideal S8192x256 .f32) (r : Fin 256) (d : Fin 256) :
    matmul dot_S256x8192_S8192x256_S256x256_1_0_0_1_n_n none w y (constant (F := Ideal) S256x256 .f32 0x00000000#32) (ix2 r d)
      = ∑ k : Fin 8192, w (ix2 r k) * y (ix2 k d) := by
  simp only [matmul]
  rw [Ideal.matmul_constant_zero_apply, ← Equiv.sum_comp (contrEquiv1 dot_S256x8192_S8192x256_S256x256_1_0_0_1_n_n 8192 rfl rfl).symm]
  refine Finset.sum_congr rfl fun k _ => ?_
  have hk := contrEquiv1_symm_val dot_S256x8192_S8192x256_S256x256_1_0_0_1_n_n 8192 rfl rfl k
  have el : dot_S256x8192_S8192x256_S256x256_1_0_0_1_n_n.lhsIdx (ix2 r d) ((contrEquiv1 dot_S256x8192_S8192x256_S256x256_1_0_0_1_n_n 8192 rfl rfl).symm k) = ix2 r k := funext fun a => Fin.ext (by
    match a with
    | ⟨0, _⟩ => exact lhsChoice_0 _ _
    | ⟨1, _⟩ => exact (lhsChoice_1 _ _).trans hk)
  have er : dot_S256x8192_S8192x256_S256x256_1_0_0_1_n_n.rhsIdx (ix2 r d) ((contrEquiv1 dot_S256x8192_S8192x256_S256x256_1_0_0_1_n_n 8192 rfl rfl).symm k) = ix2 k d := funext fun a => Fin.ext (by
    match a with
    | ⟨0, _⟩ => exact (rhsChoice_0 _ _).trans hk
    | ⟨1, _⟩ => exact rhsChoice_1 _ _)
  rw [el, er]

end Cert.KernelIdeal.BlockProducts

end
-- ==== Proof.BlockValue.lean ====
/-
  What the body computes on one block of 256 query rows, entry by entry.

  The body holds a block x0 of queries [256, 256], all candidate points x1 [8192, 256] and the
  intercept row x2 [1, 8192]. Its values are, for row r of the block:
    the scores      s k = (sum over d of x0 (r, d) * x1 (k, d)) + x2 (0, k);
    the weights     w k = exp ((s k - max s) * T) / (sum over k' of exp ((s k' - max s) * T)),
                    T the row's temperature;
    the value       sum over k of w k * s k            (stored as a column);
    the choice at d sum over k of w k * x1 (k, d).
  Everything after the scores is a function of the scores block alone, one row at a time. It is
  written below as a short chain of stages over an arbitrary block S (the column of row maxima, the
  column of row minima, the column of temperatures, the block of exponentials, the block of
  weights), each stage read at an entry; the body's printed values are these stages at the scores.
-/
import proofs.«129252_g88089779241353_cont_9to1c4b_404_2_alg».proof.Proof.Gen.KernelIdeal.Skeleton
import proofs.«129252_g88089779241353_cont_9to1c4b_404_2_alg».proof.Proof.SoftChoice
import proofs.«129252_g88089779241353_cont_9to1c4b_404_2_alg».proof.Proof.LibKeepdims
import proofs.«129252_g88089779241353_cont_9to1c4b_404_2_alg».proof.Proof.BlockProducts

noncomputable section

namespace Cert.KernelIdeal.BlockValue

open Idealize.ShloMosaic Idealize.ShloMosaic.ValueIdx Cert.KernelIdeal Cert.KernelIdeal.Gen Cert.SoftChoice Cert.Keepdims
open Cert.KernelIdeal.BlockProducts

/-! ## The stages after the scores, over any block S -/

section Stages

variable (S : FVec Ideal S256x8192 .f32)

/-- The exponential of a block, at an entry. -/
theorem exp_apply {s : Shape} (v : FVec Ideal s .f32) (i : s.Idx) : exp v i = Ideal.exp (v i) := rfl

/-- Row r of the block. -/
abbrev rowOf (r : Fin 256) : Fin 8192 → EReal := fun k => S (ix2 r k)

/-- The column of row maxima. -/
def maxCol : FVec Ideal S256x1 .f32 :=
  shapeCast S256x1 (multiReduction .maximumf [1] S256 S 0xFF800000#32 reduces_S256x8192_S256 (.inl rfl) rfl) shapeCasts_S256_S256x1

theorem maxCol_apply (r : Fin 256) (u : Fin 1) : maxCol S (ix2 r u) = rowMax (rowOf S r) :=
  (shapeCast_a_a1_apply _ _ r u).trans (laneMax_apply S _ _ _ _ r)

/-- The column of row minima. -/
def minCol : FVec Ideal S256x1 .f32 :=
  shapeCast S256x1 (multiReduction .minimumf [1] S256 S 0x7F800000#32 reduces_S256x8192_S256 (.inl rfl) rfl) shapeCasts_S256_S256x1

theorem minCol_apply (r : Fin 256) (u : Fin 1) : minCol S (ix2 r u) = rowMin (rowOf S r) :=
  (shapeCast_a_a1_apply _ _ r u).trans (laneMin_apply S _ _ _ _ r)

/-- The column of temperatures: 50 over the spread (at least 0.001), kept between 50 and 5000. -/
def tempCol : FVec Ideal S256x1 .f32 :=
  minimumf (broadcast S256x1 (Scalar.ofBits .f32 0x459C4000#32))
    (maximumf (broadcast S256x1 (Scalar.ofBits .f32 0x42480000#32))
      (divf (broadcast S256x1 (Scalar.ofBits .f32 0x42480000#32))
        (maximumf (subf (maxCol S) (minCol S)) (broadcast S256x1 (Scalar.ofBits .f32 0x3A83126F#32)))))

theorem tempCol_apply (r : Fin 256) (u : Fin 1) : tempCol S (ix2 r u) = temperature (rowOf S r) := by
  unfold tempCol temperature
  rw [minimumf_apply, maximumf_apply, divf_apply, maximumf_apply, subf_apply, maxCol_apply, minCol_apply,
    broadcast_apply, broadcast_apply, broadcast_apply, Ideal.ofBits_def, Ideal.ofBits_def, Ideal.ofBits_def]

/-- The block of exponentials: each row less its maximum, times its temperature. -/
def expBlock : FVec Ideal S256x8192 .f32 :=
  exp (mulf (subf S (broadcastTo S256x8192 (maxCol S) broadcasts_S256x1_S256x8192))
    (broadcastTo S256x8192 (tempCol S) broadcasts_S256x1_S256x8192))

theorem expBlock_apply (r : Fin 256) (k : Fin 8192) : expBlock S (ix2 r k) = expShiftThenScale (rowOf S r) k := by
  unfold expBlock expShiftThenScale
  rw [exp_apply, mulf_apply, subf_apply, broadcastTo_a1_ab_apply, broadcastTo_a1_ab_apply, maxCol_apply, tempCol_apply]

/-- The column of row sums of a block. -/
def sumCol (E : FVec Ideal S256x8192 .f32) : FVec Ideal S256x1 .f32 :=
  shapeCast S256x1 (multiReduction .add [1] S256 E 0x00000000#32 reduces_S256x8192_S256 (.inl rfl) rfl) shapeCasts_S256_S256x1

theorem sumCol_apply (E : FVec Ideal S256x8192 .f32) (r : Fin 256) (u : Fin 1) :
    sumCol E (ix2 r u) = ∑ k : Fin 8192, E (ix2 r k) :=
  (shapeCast_a_a1_apply _ _ r u).trans (laneSum_apply E _ _ _ _ r)

/-- The block of weights: the exponentials over their row sums. -/
def weightsBlock : FVec Ideal S256x8192 .f32 :=
  divf (expBlock S) (broadcastTo S256x8192 (sumCol (expBlock S)) broadcasts_S256x1_S256x8192)

theorem weightsBlock_apply (r : Fin 256) (k : Fin 8192) :
    weightsBlock S (ix2 r k) = weights (expShiftThenScale (rowOf S r)) k := by
  unfold weightsBlock weights
  rw [divf_apply, broadcastTo_a1_ab_apply, sumCol_apply, expBlock_apply]
  exact congrArg (Ideal.div _) (Finset.sum_congr rfl fun k' _ => expBlock_apply S r k')

/-- The column of weighted sums of the block's own entries. -/
def valueColBlock : FVec Ideal S256x1 .f32 := sumCol (mulf (weightsBlock S) S)

theorem valueColBlock_apply (r : Fin 256) (u : Fin 1) :
    valueColBlock S (ix2 r u) = ∑ k : Fin 8192, weights (expShiftThenScale (rowOf S r)) k * S (ix2 r k) := by
  unfold valueColBlock
  rw [sumCol_apply]
  exact Finset.sum_congr rfl fun k _ => congrArg (· * S (ix2 r k)) (weightsBlock_apply S r k)

end Stages

/-! ## The body's values -/

variable (x0 : Vec Ideal S256x256 .f32) (x1 : Vec Ideal S8192x256 .f32) (x2 : Vec Ideal S1x8192 .f32)

/-- Row r's scores on the block. -/
def blockScores (r : Fin 256) (k : Fin 8192) : EReal :=
  (∑ d : Fin 256, x0 (ix2 r d) * x1 (ix2 k d)) + x2 (ix2 (0 : Fin 1) k)

/-- The candidates pass through their cast unchanged. -/
theorem candidates_eq : k0_pay1 x1 = x1 := by
  unfold k0_pay1
  exact shapeCast_self x1 _

/-- The scores block at (r, k). -/
theorem scores_apply (r : Fin 256) (k : Fin 8192) : k0_pay2 x0 x1 x2 (ix2 r k) = blockScores x0 x1 x2 r k := by
  unfold k0_pay2 blockScores
  rw [candidates_eq]
  exact congrArg₂ (· + ·) (scoresProduct_apply x0 x1 r k) (broadcastTo_1b_ab_apply x2 _ r k)

/-- The printed weights are the weights stage at the scores. -/
theorem weights_eq : k0_pay3 x0 x1 x2 = weightsBlock (k0_pay2 x0 x1 x2) := rfl

/-- The printed value column is the value stage at the scores. -/
theorem value_eq : k0_pay4 x0 x1 x2 = valueColBlock (k0_pay2 x0 x1 x2) := rfl

/-- The weights block at (r, k). -/
theorem weights_apply (r : Fin 256) (k : Fin 8192) :
    k0_pay3 x0 x1 x2 (ix2 r k) = weights (expShiftThenScale (blockScores x0 x1 x2 r)) k := by
  rw [weights_eq, weightsBlock_apply]
  exact congrArg (fun s => weights (expShiftThenScale s) k) (funext fun k' => scores_apply x0 x1 x2 r k')

/-- The value column at (r, u): the weighted sum of the row's scores. -/
theorem value_apply (r : Fin 256) (u : Fin 1) :
    k0_pay4 x0 x1 x2 (ix2 r u)
      = ∑ k : Fin 8192, weights (expShiftThenScale (blockScores x0 x1 x2 r)) k * blockScores x0 x1 x2 r k := by
  rw [value_eq, valueColBlock_apply]
  have hrow : rowOf (k0_pay2 x0 x1 x2) r = blockScores x0 x1 x2 r := funext fun k' => scores_apply x0 x1 x2 r k'
  rw [hrow]
  exact Finset.sum_congr rfl fun k _ => congrArg (weights (expShiftThenScale (blockScores x0 x1 x2 r)) k * ·) (scores_apply x0 x1 x2 r k)

/-- The choice block at (r, d): the weighted sum of the candidates' coordinate d. -/
theorem choice_apply (r : Fin 256) (d : Fin 256) :
    k0_pay5 x0 x1 x2 (ix2 r d)
      = ∑ k : Fin 8192, weights (expShiftThenScale (blockScores x0 x1 x2 r)) k * x1 (ix2 k d) := by
  unfold k0_pay5
  rw [candidates_eq]
  refine (choiceProduct_apply (k0_pay3 x0 x1 x2) x1 r d).trans ?_
  exact Finset.sum_congr rfl fun k _ => congrArg (· * x1 (ix2 k d)) (weights_apply x0 x1 x2 r k)

end Cert.KernelIdeal.BlockValue

end
-- ==== Proof.RegionValue.lean ====
/-
  What the two output arrays hold after the launch, and after the reshape that follows it.

  The grid has 16 points. Point t works on query rows 256 * t to 256 * t + 255: its block of the
  queries is those rows of the query array, its block of the candidates and of the intercepts is
  the whole array every time, and it writes rows 256 * t .. 256 * t + 255 of the choice array and of
  the value column. So what point t writes is block t of ONE function of the arrays the launch
  finds, row i of which depends on query row i alone; the 16 blocks tile both output arrays, so
  after the run each array is that function. Before the launch the candidate points lose their
  leading axis of length one; after it the value column becomes a vector.
-/
import proofs.«129252_g88089779241353_cont_9to1c4b_404_2_alg».proof.Proof.Gen.KernelIdeal.Frame
import proofs.«129252_g88089779241353_cont_9to1c4b_404_2_alg».proof.Proof.BlockValue
import Idealize.ShloMosaic.Lib.Pipeline.Value
import Idealize.ShloMosaic.Lib.StableHlo.Run

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.SoftChoice Cert.Keepdims Cert.KernelIdeal.BlockValue
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The arrays as the launch finds them: queries, candidates (already one per row), intercepts. -/
abbrev Xarr (c : Dev nD) : FVec Ideal SX .f32 := V m c main_arg0
abbrev Yarr (c : Dev nD) : FVec Ideal SYq .f32 := V m c main_call0_v0
abbrev Barr (c : Dev nD) : FVec Ideal SB .f32 := V m c main_arg2

/-- The blocks point t is handed, at their literal shapes. -/
abbrev xblk (c : Dev nD) (t : Fin cfg0.N) : Vec Ideal S256x256 .f32 := iblk m c 0 t
abbrev yblk (c : Dev nD) (t : Fin cfg0.N) : Vec Ideal S8192x256 .f32 := iblk m c 1 t
abbrev bblk (c : Dev nD) (t : Fin cfg0.N) : Vec Ideal S1x8192 .f32 := iblk m c 2 t

theorem point_lt (t : Fin cfg0.N) : t.val < 16 := lt_of_lt_of_eq t.isLt N_0

/-- Where each window's block sits at point t, decided over the 16 points: the queries and both outputs
    move down one block of rows per point, the candidates and the intercepts stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Query row 256 * t + r, as an index of the whole array. -/
abbrev rowAt (t : Fin cfg0.N) (r : Fin 256) : Fin 4096 := ⟨t.val * 256 + r.val, by have := point_lt t; have := r.isLt; omega⟩

/-! ## The input blocks are the arrays, read where the point stands -/

theorem xblk_apply (c : Dev nD) (t : Fin cfg0.N) (r d : Fin 256) :
    xblk m c t (ix2 r d) = Xarr m c (ix2 (rowAt t r) d) := by
  obtain ⟨e00, e01, -⟩ := idx_facts t
  show V m c main_arg0 (((cfg0.win 0).blk t).view.emb (ix2 r d)) = _
  refine congrArg (V m c main_arg0) (funext fun a => Fin.ext ?_)
  match a with
  | ⟨0, _⟩ => show win0_0.index t (0 : Fin 2) * 256 + 1 * r.val = t.val * 256 + r.val; omega
  | ⟨1, _⟩ => show win0_0.index t (1 : Fin 2) * 256 + 1 * d.val = d.val; omega

theorem yblk_apply (c : Dev nD) (t : Fin cfg0.N) (k : Fin 8192) (d : Fin 256) :
    yblk m c t (ix2 k d) = Yarr m c (ix2 k d) := by
  obtain ⟨-, -, e10, e11, -⟩ := idx_facts t
  show V m c main_call0_v0 (((cfg0.win 1).blk t).view.emb (ix2 k d)) = _
  refine congrArg (V m c main_call0_v0) (funext fun a => Fin.ext ?_)
  match a with
  | ⟨0, _⟩ => show win0_1.index t (0 : Fin 2) * 8192 + 1 * k.val = k.val; omega
  | ⟨1, _⟩ => show win0_1.index t (1 : Fin 2) * 256 + 1 * d.val = d.val; omega

theorem bblk_apply (c : Dev nD) (t : Fin cfg0.N) (k : Fin 8192) :
    bblk m c t (ix2 (0 : Fin 1) k) = Barr m c (ix2 (0 : Fin 1) k) := by
  obtain ⟨-, -, -, -, e20, e21, -⟩ := idx_facts t
  show V m c main_arg2 (((cfg0.win 2).blk t).view.emb (ix2 (0 : Fin 1) k)) = _
  refine congrArg (V m c main_arg2) (funext fun a => Fin.ext ?_)
  match a with
  | ⟨0, _⟩ => show win0_2.index t (0 : Fin 2) * 1 + 1 * 0 = 0; omega
  | ⟨1, _⟩ => show win0_2.index t (1 : Fin 2) * 8192 + 1 * k.val = k.val; omega

/-- Row r of the block's scores is row 256 * t + r of the arrays' scores. -/
theorem blockScores_eq (c : Dev nD) (t : Fin cfg0.N) (r : Fin 256) :
    blockScores (xblk m c t) (yblk m c t) (bblk m c t) r = scores (Xarr m c) (Yarr m c) (Barr m c) (rowAt t r) := by
  funext k
  unfold blockScores scores
  rw [bblk_apply]
  exact congrArg (· + Barr m c (ix2 (0 : Fin 1) k))
    (Finset.sum_congr rfl fun d _ => by rw [xblk_apply, yblk_apply])

/-! ## What a point writes back -/

/-- The two results as functions of the arrays the launch finds. -/
abbrev Gchoice (c : Dev nD) : FVec Ideal SX .f32 := choice expShiftThenScale (Xarr m c) (Yarr m c) (Barr m c)
abbrev GvalueCol (c : Dev nD) : FVec Ideal SVcol .f32 := valueCol expShiftThenScale (Xarr m c) (Yarr m c) (Barr m c)

/-- Entry (r, d) of point t's block of the choice array is entry (256 * t + r, d) of the array. -/
theorem emb3 (t : Fin cfg0.N) (r d : Fin 256) :
    ((cfg0.win 3).blk t).view.emb (ix2 r d) = (ix2 (rowAt t r) d : S4096x256.Idx) := by
  obtain ⟨-, -, -, -, -, -, e30, e31, -⟩ := idx_facts t
  refine funext fun a => Fin.ext ?_
  match a with
  | ⟨0, _⟩ => show win0_3.index t (0 : Fin 2) * 256 + 1 * r.val = t.val * 256 + r.val; omega
  | ⟨1, _⟩ => show win0_3.index t (1 : Fin 2) * 256 + 1 * d.val = d.val; omega

/-- Entry (r, u) of point t's block of the value column is entry (256 * t + r, u) of the column. -/
theorem emb4 (t : Fin cfg0.N) (r : Fin 256) (u : Fin 1) :
    ((cfg0.win 4).blk t).view.emb (ix2 r u) = (ix2 (rowAt t r) u : S4096x1.Idx) := by
  obtain ⟨-, -, -, -, -, -, -, -, e40, e41⟩ := idx_facts t
  refine funext fun a => Fin.ext ?_
  match a with
  | ⟨0, _⟩ => show win0_4.index t (0 : Fin 2) * 256 + 1 * r.val = t.val * 256 + r.val; omega
  | ⟨1, _⟩ => show win0_4.index t (1 : Fin 2) * 1 + 1 * u.val = u.val; omega

/-- Point t writes back block t of the choice function. -/
theorem flushed3_eq (c : Dev nD) (t : Fin cfg0.N) :
    (dats m 0 c).flushed 3 t = ((cfg0.win 3).blk t).view.read (Elt Ideal) (Gchoice m c) := by
  show (cfg0.win 3).cut (grid0.coords t) ((dats m 0 c).after 3 t) = _
  rw [after0_3]
  unfold out0_3
  rw [View.canon_unit_zero hz]
  simp only [View.ld_unit_zero (S := S256x256) hz, View.ld_unit_zero (S := S8192x256) hz, View.ld_unit_zero (S := S1x8192) hz]
  refine funext fun (j : S256x256.Idx) => ?_
  obtain ⟨r, d, rfl⟩ : ∃ (r : Fin 256) (d : Fin 256), j = ix2 r d := ⟨j 0, j 1, eq_ix2 j⟩
  show k0_pay5 (xblk m c t) (yblk m c t) (bblk m c t) (ix2 r d) = Gchoice m c (((cfg0.win 3).blk t).view.emb (ix2 r d))
  refine (choice_apply (xblk m c t) (yblk m c t) (bblk m c t) r d).trans ?_
  refine Eq.trans ?_ (congrArg (Gchoice m c) (emb3 t r d).symm)
  show _ = choiceAt expShiftThenScale (Xarr m c) (Yarr m c) (Barr m c) (rowAt t r) d
  unfold choiceAt
  rw [blockScores_eq]
  exact Finset.sum_congr rfl fun k _ => congrArg (_ * ·) (yblk_apply m c t k d)

/-- Point t writes back block t of the value column. -/
theorem flushed4_eq (c : Dev nD) (t : Fin cfg0.N) :
    (dats m 0 c).flushed 4 t = ((cfg0.win 4).blk t).view.read (Elt Ideal) (GvalueCol m c) := by
  show (cfg0.win 4).cut (grid0.coords t) ((dats m 0 c).after 4 t) = _
  rw [after0_4]
  unfold out0_4
  rw [View.canon_unit_zero hz]
  simp only [View.ld_unit_zero (S := S256x256) hz, View.ld_unit_zero (S := S8192x256) hz, View.ld_unit_zero (S := S1x8192) hz]
  refine funext fun (j : S256x1.Idx) => ?_
  obtain ⟨r, u, rfl⟩ : ∃ (r : Fin 256) (u : Fin 1), j = ix2 r u := ⟨j 0, j 1, eq_ix2 j⟩
  show k0_pay4 (xblk m c t) (yblk m c t) (bblk m c t) (ix2 r u) = GvalueCol m c (((cfg0.win 4).blk t).view.emb (ix2 r u))
  refine (value_apply (xblk m c t) (yblk m c t) (bblk m c t) r u).trans ?_
  refine Eq.trans ?_ (congrArg (GvalueCol m c) (emb4 t r u).symm)
  show _ = valueAt expShiftThenScale (Xarr m c) (Yarr m c) (Barr m c) (rowAt t r)
  unfold valueAt
  rw [blockScores_eq]

/-! ## The blocks tile the arrays -/

theorem mem_blk3 (t : Fin cfg0.N) (i : S4096x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v0_0).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_call0_v1_1).slice (win0_4.rect t)).set ↔ _
  rw [View.set_slice_whole, Rect.mem_set_unit]
  exact Iff.rfl

/-- Row i of the choice array lies in the block of point i / 256. -/
theorem cover3 (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  have ht : (i 0).val / 256 < cfg0.N := by rw [show cfg0.N = 16 from N_0]; omega
  obtain ⟨-, -, -, -, -, -, e30, e31, -⟩ := idx_facts ⟨(i 0).val / 256, ht⟩
  have e30' : win0_3.index ⟨(i 0).val / 256, ht⟩ (0 : Fin 2) = (i 0).val / 256 := e30
  refine ⟨⟨(i 0).val / 256, ht⟩, flush0_3 _, ?_⟩
  rw [mem_blk3]
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    omega
  | ⟨1, _⟩ =>
    show win0_3.index ⟨(i 0).val / 256, ht⟩ (1 : Fin 2) * 256 ≤ (i 1).val ∧ (i 1).val < win0_3.index ⟨(i 0).val / 256, ht⟩ (1 : Fin 2) * 256 + 256
    omega

/-- Row i of the value column lies in the block of point i / 256. -/
theorem cover4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have ht : (i 0).val / 256 < cfg0.N := by rw [show cfg0.N = 16 from N_0]; omega
  obtain ⟨-, -, -, -, -, -, -, -, e40, e41⟩ := idx_facts ⟨(i 0).val / 256, ht⟩
  have e40' : win0_4.index ⟨(i 0).val / 256, ht⟩ (0 : Fin 2) = (i 0).val / 256 := e40
  refine ⟨⟨(i 0).val / 256, ht⟩, flush0_4 _, ?_⟩
  rw [mem_blk4]
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    omega
  | ⟨1, _⟩ =>
    show win0_4.index ⟨(i 0).val / 256, ht⟩ (1 : Fin 2) * 1 ≤ (i 1).val ∧ (i 1).val < win0_4.index ⟨(i 0).val / 256, ht⟩ (1 : Fin 2) * 1 + 1
    omega

/-- After the launch the choice array is the choice function of the arrays it found. -/
theorem final3 (c : Dev nD) : (dats m 0 c).arrAt 3 cfg0.N = Gchoice m c :=
  (dats m 0 c).arrAt_eq_of_cover 3 (Gchoice m c) (fun t _ => flushed3_eq m c t) cover3

/-- After the launch the value column is the value column of the arrays it found. -/
theorem final4 (c : Dev nD) : (dats m 0 c).arrAt 4 cfg0.N = GvalueCol m c :=
  (dats m 0 c).arrAt_eq_of_cover 4 (GvalueCol m c) (fun t _ => flushed4_eq m c t) cover4

/-! ## The reshapes before and after the launch -/

/-- The launch finds the candidate points with their leading axis dropped. -/
theorem Yarr_eq (c : Dev nD) : Yarr m c = squeeze (m ((c : Thread nD τ).loc main_arg1)) := by
  have e : Yarr m c = shapeCast S8192x256 (m ((c : Thread nD τ).loc main_arg1)) shapeCasts_S1x8192x256_S8192x256 := by
    show StableHlo.after hostOps0 (fun b => m (c, b)) (Proc.devRef .tc main_call0_v0) = _
    after_results
    rfl
  exact e.trans (shapeCast_eq_squeeze _ _)

/-- The queries and the intercepts reach the launch as given. -/
theorem Xarr_eq (c : Dev nD) : Xarr m c = m ((c : Thread nD τ).loc main_arg0) := V_main_arg0 m c
theorem Barr_eq (c : Dev nD) : Barr m c = m ((c : Thread nD τ).loc main_arg2) := V_main_arg2 m c

/-- The value vector after the reshape that follows the launch: entry i is entry (i, 0) of the column. -/
theorem tail_value (c : Dev nD) :
    Pipeline.afterTail₀ cfgs (dats m) 0 (V0 m) [hostOps1] c main_v0_1
      = value expShiftThenScale (Xarr m c) (Yarr m c) (Barr m c) := by
  have e : Pipeline.afterTail₀ cfgs (dats m) 0 (V0 m) [hostOps1] c main_v0_1
      = shapeCast S4096 (Pipeline.withArrays spec0 c (V0 m c) (fun w => (dats m 0 c).arrAt w cfg0.N)
          (Proc.devRef .tc main_call0_v1_1)) shapeCasts_S4096x1_S4096 := by
    unfold Pipeline.afterTail₀
    show StableHlo.after hostOps1 _ (Proc.devRef .tc main_v0_1) = _
    after_results
    rfl
  have ew : Pipeline.withArrays spec0 c (V0 m c) (fun w => (dats m 0 c).arrAt w cfg0.N)
      (Proc.devRef .tc main_call0_v1_1) = GvalueCol m c :=
    (Pipeline.withArrays_arr spec0 launch0.win.arr_inj c _ _ 4).trans (final4 m c)
  refine e.trans ((congrArg (fun A => shapeCast S4096 A shapeCasts_S4096x1_S4096) ew).trans ?_)
  funext j
  obtain ⟨i, rfl⟩ : ∃ i : Fin 4096, j = ix1 i := ⟨j 0, eq_ix1 j⟩
  exact shapeCast_a1_a_apply (GvalueCol m c) shapeCasts_S4096x1_S4096 i

/-! ## The run, read -/

/-- Every weakly fair execution ends with the choice array and the value vector at the specification's
    functions of the argument arrays, the arguments unchanged. -/
theorem run : θ_run defs (onTc (τ := τ) (main (F := Ideal))) ⟨m, fun _ => 0, ρ⟩ fun r => ∀ c : Dev nD,
      r.2.mem ((c.tc : Thread nD τ).loc main_v0_0)
        = choice expShiftThenScale (m ((c.tc : Thread nD τ).loc main_arg0)) (squeeze (m ((c.tc : Thread nD τ).loc main_arg1))) (m ((c.tc : Thread nD τ).loc main_arg2))
      ∧ r.2.mem ((c.tc : Thread nD τ).loc main_v0_1)
        = value expShiftThenScale (m ((c.tc : Thread nD τ).loc main_arg0)) (squeeze (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).1 3).trans ((final3 m c).trans (by
        show choice expShiftThenScale (Xarr m c) (Yarr m c) (Barr m c) = _
        rw [Xarr_eq, Yarr_eq, Barr_eq])),
      ((h c).2 main_v0_1 (Pipeline.mem_restRefs_of main_v0_1 (by decide) (by decide))).trans ((tail_value m c).trans (by
        rw [Xarr_eq, Yarr_eq, Barr_eq])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.RegionValue

end
-- ==== Proof.ReferenceValue.lean ====
/-
  The reference's two results are the specification's, in the arrangement that multiplies first.

  Read one operation at a time: the candidate points are reshaped and transposed, so the first
  product at (i, k) is the inner product of query i with candidate k; the intercept row is added;
  each row's largest and smallest entries give the temperature (the clip is a maximum against 50
  then a minimum against 5000); the row is multiplied by the temperature, its maximum subtracted,
  and the soft-max subtracts once more the maximum of the result taken against minus infinity;
  the exponentials are divided by their row sum (the sum starts from zero); and the two results are
  the row sums of weight times score and of weight times candidate coordinate.
-/
import proofs.«129252_g88089779241353_cont_9to1c4b_404_2_alg».proof.Proof.Gen.ReferenceIdeal.Read
import proofs.«129252_g88089779241353_cont_9to1c4b_404_2_alg».proof.Proof.SoftChoice
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.SoftChoice

/-! ## Scores -/

/-- The reshaped candidates are the candidates with the leading axis dropped. -/
private theorem v0_eq (x1 : FVec Ideal SY .f32) : Read.val_main_v0 (F := Ideal) x1 = squeeze x1 :=
  shapeCast_eq_squeeze x1 _

/-- The transposed candidates at (d, k) are candidate k's coordinate d. -/
private theorem v1_at (x1 : FVec Ideal SY .f32) (d : Fin 256) (k : Fin 8192) :
    Read.val_main_v1 (F := Ideal) x1 (ix2 d k) = squeeze x1 (ix2 k d) := by
  rw [Read.val_main_v1_apply, v0_eq]
  exact congrArg (squeeze x1) (funext fun a => Fin.ext (by match a with | ⟨0, _⟩ => rfl | ⟨1, _⟩ => rfl))

/-- The first product at (i, k) is the inner product of query i with candidate k. -/
private theorem v2_at (x0 : FVec Ideal SX .f32) (x1 : FVec Ideal SY .f32) (i : Fin 4096) (k : Fin 8192) :
    Read.val_main_v2 (F := Ideal) x0 x1 (ix2 i k) = ∑ d : Fin 256, x0 (ix2 i d) * squeeze x1 (ix2 k d) := by
  rw [Read.val_main_v2_apply]
  refine Finset.sum_congr rfl fun d _ => ?_
  have hl : Read.lidx_main_v2 (ix2 i k) d = ix2 i d :=
    funext fun a => Fin.ext (by match a with | ⟨0, _⟩ => rfl | ⟨1, _⟩ => rfl)
  have hr : Read.ridx_main_v2 (ix2 i k) d = ix2 d k :=
    funext fun a => Fin.ext (by match a with | ⟨0, _⟩ => rfl | ⟨1, _⟩ => rfl)
  rw [hl, hr, v1_at]

/-- The broadcast intercept row at (i, k) is candidate k's intercept. -/
private theorem v3_at (x2 : FVec Ideal SB .f32) (i : Fin 4096) (k : Fin 8192) :
    Read.val_main_v3 (F := Ideal) x2 (ix2 i k) = x2 (ix2 (0 : Fin 1) k) := by
  rw [Read.val_main_v3_apply]
  exact congrArg x2 (funext fun a => Fin.ext (by match a with | ⟨0, _⟩ => rfl | ⟨1, _⟩ => rfl))

/-- The fourth stage is the array of scores. -/
private theorem v4_at (x0 : FVec Ideal SX .f32) (x1 : FVec Ideal SY .f32) (x2 : FVec Ideal SB .f32)
    (i : Fin 4096) (k : Fin 8192) :
    Read.val_main_v4 (F := Ideal) x0 x1 x2 (ix2 i k) = scores x0 (squeeze x1) x2 i k := by
  rw [Read.val_main_v4_apply, v2_at, v3_at]
  rfl

/-! ## Row reductions -/

private theorem reduces_d1 : S4096x8192.Reduces [1] S4096 := by decide

/-- Row i with column k put back is (i, k). -/
private theorem lift_row (i : Fin 4096) (k : Fin (S4096x8192.size 1)) :
    reduces_d1.lift (ix1 i) k = ix2 i (⟨k.val, k.isLt⟩ : Fin 8192) :=
  funext fun a => Fin.ext (by match a with | ⟨0, _⟩ => rfl | ⟨1, _⟩ => rfl)

/-- A maximum over axis 1 from minus infinity is, at row i, the row's largest entry. -/
private theorem reduce_max_at (x : FVec Ideal S4096x8192 .f32) (init : FVec Ideal S_ .f32)
    (h' : S4096x8192.ReducesTo [1] S4096) (hu : 0 < S_.numel)
    (hinit : init (Shape.Idx.first hu) = Ideal.ofBits .f32 0xFF800000#32) (i : Fin 4096) :
    Host.reduce FloatOps.maximumf x init h' hu (ix1 i) = rowMax fun k : Fin 8192 => x (ix2 i k) := by
  rw [Host.reduce_eq_fold_single FloatOps.maximumf x init h' reduces_d1 hu, hinit]
  have hf : (x ∘ reduces_d1.lift (ix1 i)) = fun k : Fin 8192 => x (ix2 i k) :=
    funext fun k => congrArg x (lift_row i k)
  rw [hf]
  rfl

/-- A minimum over axis 1 from plus infinity is, at row i, the row's smallest entry. -/
private theorem reduce_min_at (x : FVec Ideal S4096x8192 .f32) (init : FVec Ideal S_ .f32)
    (h' : S4096x8192.ReducesTo [1] S4096) (hu : 0 < S_.numel)
    (hinit : init (Shape.Idx.first hu) = Ideal.ofBits .f32 0x7F800000#32) (i : Fin 4096) :
    Host.reduce FloatOps.minimumf x init h' hu (ix1 i) = rowMin fun k : Fin 8192 => x (ix2 i k) := by
  rw [Host.reduce_eq_fold_single FloatOps.minimumf x init h' reduces_d1 hu, hinit]
  have hf : (x ∘ reduces_d1.lift (ix1 i)) = fun k : Fin 8192 => x (ix2 i k) :=
    funext fun k => congrArg x (lift_row i k)
  rw [hf]
  rfl

/-! ## One row of the reference

Every later stage, read at row i, is a function of row i of the fourth stage. -/

section Stages

variable (x0 : FVec Ideal SX .f32) (x1 : FVec Ideal SY .f32) (x2 : FVec Ideal SB .f32)

/-- Row i of the fourth stage. -/
private abbrev row (i : Fin 4096) : Fin 8192 → EReal :=
  fun k => Read.val_main_v4 (F := Ideal) x0 x1 x2 (ix2 i k)

private theorem row_eq (i : Fin 4096) : row x0 x1 x2 i = scores x0 (squeeze x1) x2 i :=
  funext fun k => v4_at x0 x1 x2 i k

/-- A column index's row, as a vector index. -/
private theorem col_to_vec (i : Fin 4096) (u : Fin 1) :
    (fun a => match a with | ⟨0, _⟩ => ⟨((ix2 i u : S4096x1.Idx) 0).val, ((ix2 i u : S4096x1.Idx) 0).isLt⟩ : S4096.Idx)
      = ix1 i :=
  funext fun a => Fin.ext (by match a with | ⟨0, _⟩ => rfl)

/-- A full index's row, as a column index. -/
private theorem full_to_col (i : Fin 4096) (k : Fin 8192) :
    (fun a => match a with
      | ⟨0, _⟩ => ⟨((ix2 i k : S4096x8192.Idx) 0).val, ((ix2 i k : S4096x8192.Idx) 0).isLt⟩
      | ⟨1, _⟩ => ⟨0, Nat.one_pos⟩ : S4096x1.Idx)
      = ix2 i (0 : Fin 1) :=
  funext fun a => Fin.ext (by match a with | ⟨0, _⟩ => rfl | ⟨1, _⟩ => rfl)

/-- A vector index with a column put in, as a full index. -/
private theorem vec_to_full (i : Fin 4096) (k : Fin 8192) :
    (fun a => match a with
      | ⟨0, _⟩ => ⟨((ix1 i : S4096.Idx) 0).val, ((ix1 i : S4096.Idx) 0).isLt⟩
      | ⟨1, _⟩ => ⟨k.val, k.isLt⟩ : S4096x8192.Idx)
      = ix2 i k :=
  funext fun a => Fin.ext (by match a with | ⟨0, _⟩ => rfl | ⟨1, _⟩ => rfl)

private theorem v5_at (i : Fin 4096) :
    Read.val_main_v5 (F := Ideal) x0 x1 x2 (ix1 i) = rowMax (row x0 x1 x2 i) := by
  unfold Read.val_main_v5
  exact reduce_max_at _ _ _ _ rfl i

private theorem v7_at (i : Fin 4096) :
    Read.val_main_v7 (F := Ideal) x0 x1 x2 (ix1 i) = rowMin (row x0 x1 x2 i) := by
  unfold Read.val_main_v7
  exact reduce_min_at _ _ _ _ rfl i

/-- The clipped quotient is the row's temperature. -/
private theorem v14_at (i : Fin 4096) (u : Fin 1) :
    Read.val_main_v14 (F := Ideal) x0 x1 x2 (ix2 i u) = temperature (row x0 x1 x2 i) := by
  rw [Read.val_main_v14_apply, Read.val_main_call0_v2_apply, Read.val_main_v13_apply, Read.val_main_v11_apply,
    Read.val_main_v9_apply, Read.val_main_v6_apply, Read.val_main_v8_apply]
  have h6 : Read.idx_main_v6 (ix2 i u) = ix1 i := col_to_vec i u
  have h8 : Read.idx_main_v8 (ix2 i u) = ix1 i := col_to_vec i u
  rw [h6, h8, v5_at, v7_at]
  rfl

private theorem v15_at (i : Fin 4096) (k : Fin 8192) :
    Read.val_main_v15 (F := Ideal) x0 x1 x2 (ix2 i k) = temperature (row x0 x1 x2 i) := by
  rw [Read.val_main_v15_apply]
  have h : Read.idx_main_v15 (ix2 i k) = ix2 i (0 : Fin 1) := full_to_col i k
  rw [h, v14_at]

/-- The scaled row. -/
private theorem v16_at (i : Fin 4096) (k : Fin 8192) :
    Read.val_main_v16 (F := Ideal) x0 x1 x2 (ix2 i k)
      = row x0 x1 x2 i k * temperature (row x0 x1 x2 i) := by
  rw [Read.val_main_v16_apply, v15_at]
  rfl

private theorem v17_at (i : Fin 4096) :
    Read.val_main_v17 (F := Ideal) x0 x1 x2 (ix1 i)
      = rowMax (fun j => row x0 x1 x2 i j * temperature (row x0 x1 x2 i)) := by
  unfold Read.val_main_v17
  rw [reduce_max_at _ _ _ _ rfl i]
  exact congrArg rowMax (funext fun k => v16_at x0 x1 x2 i k)

private theorem v19_at (i : Fin 4096) (k : Fin 8192) :
    Read.val_main_v19 (F := Ideal) x0 x1 x2 (ix2 i k)
      = rowMax (fun j => row x0 x1 x2 i j * temperature (row x0 x1 x2 i)) := by
  rw [Read.val_main_v19_apply, Read.val_main_v18_apply]
  have h : Read.idx_main_v19 (ix2 i k) = ix2 i (0 : Fin 1) := full_to_col i k
  have h' : Read.idx_main_v18 (ix2 i (0 : Fin 1)) = ix1 i := col_to_vec i 0
  rw [h, h', v17_at]

/-- The scaled row less its maximum. -/
private theorem v20_at (i : Fin 4096) (k : Fin 8192) :
    Read.val_main_v20 (F := Ideal) x0 x1 x2 (ix2 i k)
      = row x0 x1 x2 i k * temperature (row x0 x1 x2 i)
        - rowMax (fun j => row x0 x1 x2 i j * temperature (row x0 x1 x2 i)) := by
  rw [Read.val_main_v20_apply, v16_at, v19_at]
  rfl

private theorem v21_at (i : Fin 4096) :
    Read.val_main_v21 (F := Ideal) x0 x1 x2 (ix1 i)
      = rowMax (fun k' => row x0 x1 x2 i k' * temperature (row x0 x1 x2 i)
          - rowMax (fun j => row x0 x1 x2 i j * temperature (row x0 x1 x2 i))) := by
  unfold Read.val_main_v21
  rw [reduce_max_at _ _ _ _ rfl i]
  exact congrArg rowMax (funext fun k => v20_at x0 x1 x2 i k)

private theorem v25_at (i : Fin 4096) (k : Fin 8192) :
    Read.val_main_v25 (F := Ideal) x0 x1 x2 (ix2 i k)
      = max (Ideal.ofBits .f32 0xFF800000#32)
          (rowMax (fun k' => row x0 x1 x2 i k' * temperature (row x0 x1 x2 i)
            - rowMax (fun j => row x0 x1 x2 i j * temperature (row x0 x1 x2 i)))) := by
  rw [Read.val_main_v25_apply, Read.val_main_v24_apply, Read.val_main_v23_apply]
  have h : Read.idx_main_v25 (ix2 i k) = ix2 i (0 : Fin 1) := full_to_col i k
  have h' : Read.idx_main_v24 (ix2 i (0 : Fin 1)) = ix1 i := col_to_vec i 0
  rw [h, h', v21_at]
  rfl

/-- The exponentials are the unnormalised weights, the temperature multiplying first. -/
private theorem v27_at (i : Fin 4096) (k : Fin 8192) :
    Read.val_main_v27 (F := Ideal) x0 x1 x2 (ix2 i k) = expScaleThenShift (row x0 x1 x2 i) k := by
  rw [Read.val_main_v27_apply, Read.val_main_v26_apply, v20_at, v25_at]
  rfl

/-- The row sum of the exponentials; the sum starts from zero. -/
private theorem v28_at (i : Fin 4096) :
    Read.val_main_v28 (F := Ideal) x0 x1 x2 (ix1 i) = ∑ k : Fin 8192, expScaleThenShift (row x0 x1 x2 i) k := by
  rw [Read.val_main_v28_apply]
  refine (congrArg (· + _) Ideal.ofBits_zero_f32).trans ?_
  rw [zero_add]
  refine Finset.sum_congr rfl fun k _ => ?_
  have h : Read.idx_main_v28 (ix1 i) k = ix2 i k := vec_to_full i k
  rw [h, v27_at]

private theorem v30_at (i : Fin 4096) (k : Fin 8192) :
    Read.val_main_v30 (F := Ideal) x0 x1 x2 (ix2 i k) = ∑ k' : Fin 8192, expScaleThenShift (row x0 x1 x2 i) k' := by
  rw [Read.val_main_v30_apply, Read.val_main_v29_apply]
  have h : Read.idx_main_v30 (ix2 i k) = ix2 i (0 : Fin 1) := full_to_col i k
  have h' : Read.idx_main_v29 (ix2 i (0 : Fin 1)) = ix1 i := col_to_vec i 0
  rw [h, h', v28_at]

/-- The quotients are the weights. -/
private theorem v31_at (i : Fin 4096) (k : Fin 8192) :
    Read.val_main_v31 (F := Ideal) x0 x1 x2 (ix2 i k) = weights (expScaleThenShift (row x0 x1 x2 i)) k := by
  rw [Read.val_main_v31_apply, v27_at, v30_at]
  rfl

/-- The second result at row i; the sum starts from zero. -/
private theorem v33_at (i : Fin 4096) :
    Read.val_main_v33 (F := Ideal) x0 x1 x2 (ix1 i)
      = ∑ k : Fin 8192, weights (expScaleThenShift (row x0 x1 x2 i)) k * row x0 x1 x2 i k := by
  rw [Read.val_main_v33_apply]
  refine (congrArg (· + _) Ideal.ofBits_zero_f32).trans ?_
  rw [zero_add]
  refine Finset.sum_congr rfl fun k _ => ?_
  have h : Read.idx_main_v33 (ix1 i) k = ix2 i k := vec_to_full i k
  rw [h, Read.val_main_v32_apply, v31_at]
  rfl

/-- The first result at (i, d). -/
private theorem v34_at (i : Fin 4096) (d : Fin 256) :
    Read.val_main_v34 (F := Ideal) x0 x1 x2 (ix2 i d)
      = ∑ k : Fin 8192, weights (expScaleThenShift (row x0 x1 x2 i)) k * squeeze x1 (ix2 k d) := by
  rw [Read.val_main_v34_apply]
  refine Finset.sum_congr rfl fun k _ => ?_
  have hl : Read.lidx_main_v34 (ix2 i d) k = ix2 i k :=
    funext fun a => Fin.ext (by match a with | ⟨0, _⟩ => rfl | ⟨1, _⟩ => rfl)
  have hr : Read.ridx_main_v34 (ix2 i d) k = ix2 k d :=
    funext fun a => Fin.ext (by match a with | ⟨0, _⟩ => rfl | ⟨1, _⟩ => rfl)
  rw [hl, hr, v31_at, v0_eq]

end Stages

/-! ## The two results -/

/-- The first result: the weighted means of the candidate points. -/
theorem choice_eq (x0 : FVec Ideal SX .f32) (x1 : FVec Ideal SY .f32) (x2 : FVec Ideal SB .f32) :
    Cert.ReferenceIdeal.Read.val_main_v34 (F := Ideal) x0 x1 x2
      = choice expScaleThenShift x0 (squeeze x1) x2 := by
  funext j
  obtain ⟨i, d, rfl⟩ : ∃ (i : Fin 4096) (d : Fin 256), j = ix2 i d := ⟨j 0, j 1, eq_ix2 j⟩
  rw [v34_at, row_eq]
  rfl

/-- The second result: the weighted means of the scores. -/
theorem value_eq (x0 : FVec Ideal SX .f32) (x1 : FVec Ideal SY .f32) (x2 : FVec Ideal SB .f32) :
    Cert.ReferenceIdeal.Read.val_main_v33 (F := Ideal) x0 x1 x2
      = value expScaleThenShift x0 (squeeze x1) x2 := by
  funext j
  obtain ⟨i, rfl⟩ : ∃ i : Fin 4096, j = ix1 i := ⟨j 0, eq_ix1 j⟩
  rw [v33_at, row_eq]
  rfl

end Cert.ReferenceIdeal.RefValue

end
-- ==== Proof.RowShift.lean ====
/-
  The two arrangements of the exponent agree on a row of real numbers.

  Let the row be real and non-empty, M its largest entry and T its temperature. T lies between 50
  and 5000 whatever the row is, so it is a positive real number. Multiplying a real row by a positive
  real multiplies its largest entry by the same number, so the scaled row's maximum is M * T and
  the scaled row less its maximum is (s k - M) * T, whose own largest entry is 0 (attained where
  s k = M). Subtracting that 0, taken against minus infinity, changes nothing.
-/
import proofs.«129252_g88089779241353_cont_9to1c4b_404_2_alg».proof.Proof.SoftChoice

noncomputable section

namespace Cert.SoftChoice

open Idealize.ShloMosaic

/-- The word 0xFF800000 denotes minus infinity. -/
private theorem negInf_eq : Ideal.ofBits .f32 0xFF800000#32 = (⊥ : EReal) := by
  simp [Ideal.ofBits, Ideal.ieee]

/-- The word 0x42480000 denotes 50. -/
private theorem fifty_eq : Ideal.ofBits .f32 0x42480000#32 = ((50 : ℝ) : EReal) := by
  simp [Ideal.ofBits, Ideal.ieee, -EReal.coe_mul]; norm_num

/-- The word 0x459C4000 denotes 5000. -/
private theorem fiveThousand_eq : Ideal.ofBits .f32 0x459C4000#32 = ((5000 : ℝ) : EReal) := by
  simp [Ideal.ofBits, Ideal.ieee, -EReal.coe_mul]; norm_num

/-- The largest entry of a non-empty finite real row is a real number, bounds the row and is
    attained. -/
private theorem rowMax_coe {ι : Type} [Fintype ι] [Nonempty ι] (f : ι → ℝ) :
    ∃ m : ℝ, rowMax (fun k => (f k : EReal)) = (m : EReal) ∧ (∀ k, f k ≤ m) ∧ ∃ k0, f k0 = m := by
  obtain ⟨k0, -, hk0⟩ := Finset.exists_max_image (Finset.univ : Finset ι) f Finset.univ_nonempty
  refine ⟨f k0, ?_, fun k => hk0 k (Finset.mem_univ k), k0, rfl⟩
  unfold rowMax
  rw [negInf_eq]
  apply le_antisymm
  · exact (Finset.fold_max_le _).2 ⟨bot_le, fun x hx => EReal.coe_le_coe_iff.2 (hk0 x hx)⟩
  · exact (Finset.le_fold_max _).2 (Or.inr ⟨k0, Finset.mem_univ k0, le_rfl⟩)

/-- Whatever lies inside, a quantity kept between 50 and 5000 is a positive real number. -/
private theorem clamp_pos (x : EReal) :
    ∃ e : ℝ, min ((5000 : ℝ) : EReal) (max ((50 : ℝ) : EReal) x) = (e : EReal) ∧ 0 < e := by
  induction x using EReal.rec with
  | bot =>
    refine ⟨50, ?_, by norm_num⟩
    rw [max_eq_left bot_le, min_eq_right]
    exact EReal.coe_le_coe_iff.2 (by norm_num)
  | coe x =>
    refine ⟨min 5000 (max 50 x), ?_, ?_⟩
    · rw [EReal.coe_strictMono.monotone.map_min, EReal.coe_strictMono.monotone.map_max]
    · exact lt_min (by norm_num) (lt_of_lt_of_le (by norm_num) (le_max_left _ _))
  | top =>
    refine ⟨5000, ?_, by norm_num⟩
    rw [max_eq_right le_top, min_eq_left le_top]

/-- The temperature of any row is a positive real number. -/
private theorem temperature_pos {ι : Type} [Fintype ι] (s : ι → EReal) :
    ∃ e : ℝ, temperature s = (e : EReal) ∧ 0 < e := by
  unfold temperature
  rw [fifty_eq, fiveThousand_eq]
  exact clamp_pos _

theorem expScaleThenShift_eq {ι : Type} [Fintype ι] [Nonempty ι] (s : ι → EReal)
    (hs : ∀ k, ∃ r : ℝ, s k = (r : EReal)) : expScaleThenShift s = expShiftThenScale s := by
  choose r hr using hs
  obtain ⟨e, hT, he⟩ := temperature_pos s
  -- the row's own largest entry
  have hsr : s = fun k => (r k : EReal) := funext hr
  obtain ⟨m, hm, hub, k0, hk0⟩ := rowMax_coe r
  rw [← hsr] at hm
  -- the scaled row and its largest entry
  have h1 : (fun j => s j * temperature s) = fun j => ((r j * e : ℝ) : EReal) := by
    funext j; rw [hr j, hT, EReal.coe_mul]
  obtain ⟨m1, hm1, hub1, k1, hk1⟩ := rowMax_coe (fun j => r j * e)
  rw [← h1] at hm1
  have hm1e : m1 = m * e := by
    apply le_antisymm
    · rw [← hk1]; exact mul_le_mul_of_nonneg_right (hub k1) he.le
    · rw [← hk0]; exact hub1 k0
  -- the scaled row less its largest entry, and the largest entry of that
  have h2 : (fun k' => s k' * temperature s - rowMax (fun j => s j * temperature s))
      = fun k' => ((r k' * e - m1 : ℝ) : EReal) := by
    funext k'; rw [hm1, hr k', hT, EReal.coe_sub, EReal.coe_mul]
  obtain ⟨m2, hm2, hub2, k2, hk2⟩ := rowMax_coe (fun k' => r k' * e - m1)
  rw [← h2] at hm2
  have hm20 : m2 = 0 := by
    apply le_antisymm
    · rw [← hk2]; exact sub_nonpos.2 (hub1 k2)
    · have := hub2 k1
      rw [hk1, sub_self] at this
      exact this
  funext k
  unfold expScaleThenShift expShiftThenScale
  congr 1
  rw [hm2, hm1, hm, negInf_eq, max_eq_right bot_le, hT, hr k, hm20, hm1e]
  rw [← EReal.coe_mul, ← EReal.coe_sub, ← EReal.coe_sub, ← EReal.coe_sub, ← EReal.coe_mul]
  congr 1
  ring

end Cert.SoftChoice

end
-- ==== Proof.RealInputs.lean ====
/-
  Finite inputs are real numbers, and so are the scores.

  The precondition says every entry of the three argument arrays is smaller in absolute value than
  plus infinity. On the extended reals that leaves exactly the real numbers. A score is a finite sum
  of products of such entries plus one more entry, hence real again.
-/
import proofs.«129252_g88089779241353_cont_9to1c4b_404_2_alg».proof.Pre_finite_inputs
import proofs.«129252_g88089779241353_cont_9to1c4b_404_2_alg».proof.Proof.Gen.Pre_finite_inputs
import proofs.«129252_g88089779241353_cont_9to1c4b_404_2_alg».proof.Proof.SoftChoice
import Idealize.ShloMosaic.Lib.ReduceAll

noncomputable section

namespace Cert.SoftChoice

open Idealize.ShloMosaic Idealize.ShloMosaic.ValueIdx

/-- The word 0x7F800000 (exponent field all ones, fraction zero, sign clear) is plus infinity. -/
private theorem inf_word : Ideal.ofBits .f32 0x7F800000#32 = (⊤ : EReal) := by
  simp [Ideal.ofBits, Ideal.ieee]

/-- An extended real whose absolute value max x (-x) lies strictly below plus infinity is a real
    number: at plus infinity and at minus infinity that maximum is plus infinity itself, so the
    strict comparison fails there, and what is left of the extended reals is the real line. -/
private theorem real_of_abs_lt_inf (x : EReal)
    (h : Ideal.cmp .olt (max x (-x)) (Ideal.ofBits .f32 0x7F800000#32) = 1#1) :
    ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- Under the precondition every entry of every argument array is a real number. -/
theorem real_of_finite_inputs (X : FVec Ideal SX .f32) (Y : FVec Ideal SY .f32) (B : FVec Ideal SB .f32)
    (h : Cert.Pre_finite_inputs.fn (F := Ideal) X Y B = fun _ => 1#1) :
    (∀ i, ∃ r : ℝ, X i = (r : EReal)) ∧ (∀ i, ∃ r : ℝ, Y i = (r : EReal)) ∧ (∀ i, ∃ r : ℝ, B i = (r : EReal)) := by
  -- the result shape has rank zero, hence exactly one index
  haveI : Subsingleton Cert.Pre_finite_inputs.S_.Idx := ⟨fun a b => funext fun d => d.elim0⟩
  -- the precondition at that one index: a conjunction of three "all entries pass" reductions
  have h0 := congrFun h ValueIdx.ix0
  dsimp only [Cert.Pre_finite_inputs.fn] at h0
  obtain ⟨hXY, hB⟩ := IntOp.andi_eq_one.1 h0
  obtain ⟨hX, hY⟩ := IntOp.andi_eq_one.1 hXY
  -- each reduction by "and" that came out true saw a true comparison |entry| < +inf at every index
  refine ⟨fun i => ?_, fun i => ?_, fun i => ?_⟩
  · exact real_of_abs_lt_inf (X i) (Host.reduce_andi_all _ _ _ _ ix0 hX i)
  · exact real_of_abs_lt_inf (Y i) (Host.reduce_andi_all _ _ _ _ ix0 hY i)
  · exact real_of_abs_lt_inf (B i) (Host.reduce_andi_all _ _ _ _ ix0 hB i)

/-- A finite sum of real numbers, read in the extended reals, is the real sum. -/
private theorem coe_sum {ι : Type} (s : Finset ι) (f : ι → ℝ) :
    ∑ d ∈ s, ((f d : ℝ) : EReal) = ((∑ d ∈ s, f d : ℝ) : EReal) := by
  classical
  induction s using Finset.induction_on with
  | empty => simp
  | insert a s ha ih => rw [Finset.sum_insert ha, Finset.sum_insert ha, ih, EReal.coe_add]

/-- Scores of real arrays are real. -/
theorem scores_real (X : FVec Ideal SX .f32) (Yq : FVec Ideal SYq .f32) (B : FVec Ideal SB .f32)
    (hX : ∀ i, ∃ r : ℝ, X i = (r : EReal)) (hY : ∀ i, ∃ r : ℝ, Yq i = (r : EReal)) (hB : ∀ i, ∃ r : ℝ, B i = (r : EReal))
    (i : Fin 4096) (k : Fin 8192) : ∃ r : ℝ, scores X Yq B i k = (r : EReal) := by
  -- name the real entries; the score is then the same expression formed in the reals
  choose x hx using hX
  choose y hy using hY
  choose b hb using hB
  refine ⟨(∑ d : Fin 256, x (ix2 i d) * y (ix2 k d)) + b (ix2 (0 : Fin 1) k), ?_⟩
  unfold scores
  rw [EReal.coe_add, ← coe_sum, hb]
  congr 1
  refine Finset.sum_congr rfl fun d _ => ?_
  rw [hx, hy, EReal.coe_mul]

end Cert.SoftChoice

end
-- ==== Proof.Arrangements.lean ====
/-
  On arrays whose scores are real numbers the two arrangements of the exponent give the same
  results: row by row the unnormalised weights agree, so the weights, the weighted means of the
  scores and the weighted means of the candidate points agree.
-/
import proofs.«129252_g88089779241353_cont_9to1c4b_404_2_alg».proof.Proof.RowShift
import proofs.«129252_g88089779241353_cont_9to1c4b_404_2_alg».proof.Proof.RealInputs

noncomputable section

namespace Cert.SoftChoice

open Idealize.ShloMosaic Idealize.ShloMosaic.ValueIdx

theorem choice_arrangements (X : FVec Ideal SX .f32) (Yq : FVec Ideal SYq .f32) (B : FVec Ideal SB .f32)
    (hreal : ∀ i k, ∃ r : ℝ, scores X Yq B i k = (r : EReal)) :
    choice expScaleThenShift X Yq B = choice expShiftThenScale X Yq B := by
  funext j
  unfold choice choiceAt
  rw [expScaleThenShift_eq _ (hreal _)]

theorem value_arrangements (X : FVec Ideal SX .f32) (Yq : FVec Ideal SYq .f32) (B : FVec Ideal SB .f32)
    (hreal : ∀ i k, ∃ r : ℝ, scores X Yq B i k = (r : EReal)) :
    value expScaleThenShift X Yq B = value expShiftThenScale X Yq B := by
  funext j
  unfold value valueAt
  rw [expScaleThenShift_eq _ (hreal _)]

end Cert.SoftChoice

end
-- ==== Proof.lean ====
/-
  The kernel and its reference compute the same two arrays.

  For each of 4096 query points both programs form the scores against 8192 candidate points (an
  inner product plus the candidate's intercept), turn the row of scores into soft-max weights at a
  temperature set by the row's spread (50 over the spread, the spread at least 0.001, the result
  kept between 50 and 5000), and return the weighted mean of the candidate points and the weighted
  mean of the scores. The kernel does this sixteen blocks of 256 rows at a time and subtracts the
  row's maximum before multiplying by the temperature; the reference works on whole arrays,
  multiplies first, subtracts the maximum of the multiplied row, and its soft-max subtracts a
  maximum once more. Over the extended reals these agree as soon as every score is a real number,
  which the precondition (every input entry finite) gives: a positive real temperature commutes
  with taking a row's maximum, and the second subtraction removes zero.

  Both programs' frames are the generated ones (the reference's is its run with the results
  dropped), and the idealization rewrote nothing, so the remaining work is the value claim.
-/
import proofs.«129252_g88089779241353_cont_9to1c4b_404_2_alg».proof.Defs
import proofs.«129252_g88089779241353_cont_9to1c4b_404_2_alg».proof.Proof.Gen.Kernel
import proofs.«129252_g88089779241353_cont_9to1c4b_404_2_alg».proof.Proof.Gen.Kernel.Skeleton
import proofs.«129252_g88089779241353_cont_9to1c4b_404_2_alg».proof.Proof.Gen.Kernel.Launch
import proofs.«129252_g88089779241353_cont_9to1c4b_404_2_alg».proof.Proof.Gen.Kernel.Points
import proofs.«129252_g88089779241353_cont_9to1c4b_404_2_alg».proof.Proof.Gen.Kernel.Frame
import proofs.«129252_g88089779241353_cont_9to1c4b_404_2_alg».proof.Proof.Gen.KernelIdeal
import proofs.«129252_g88089779241353_cont_9to1c4b_404_2_alg».proof.Proof.Gen.KernelIdeal.Skeleton
import proofs.«129252_g88089779241353_cont_9to1c4b_404_2_alg».proof.Proof.Gen.KernelIdeal.Launch
import proofs.«129252_g88089779241353_cont_9to1c4b_404_2_alg».proof.Proof.Gen.KernelIdeal.Points
import proofs.«129252_g88089779241353_cont_9to1c4b_404_2_alg».proof.Proof.Gen.KernelIdeal.Frame
import proofs.«129252_g88089779241353_cont_9to1c4b_404_2_alg».proof.Proof.Gen.ReferenceIdeal
import proofs.«129252_g88089779241353_cont_9to1c4b_404_2_alg».proof.Proof.Gen.Pre_finite_inputs
import proofs.«129252_g88089779241353_cont_9to1c4b_404_2_alg».proof.Proof.Gen.ReferenceIdeal.Run
import proofs.«129252_g88089779241353_cont_9to1c4b_404_2_alg».proof.Proof.Gen.ReferenceIdeal.Read
import proofs.«129252_g88089779241353_cont_9to1c4b_404_2_alg».proof.Proof.RegionValue
import proofs.«129252_g88089779241353_cont_9to1c4b_404_2_alg».proof.Proof.ReferenceValue
import proofs.«129252_g88089779241353_cont_9to1c4b_404_2_alg».proof.Proof.Arrangements
import Idealize.ShloMosaic.Adequacy
import Idealize.ShloMosaic.Init

noncomputable section

namespace Cert.Proof

open Idealize.ShloMosaic Idealize.ShloMosaic.TcCoe Idealize.SL.Sem Cert.SoftChoice

/-- The kernel as printed terminates, faults nowhere and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- From memories that agree on the three arguments, all of them finite, both programs end with the
    choice array and the value vector at the same functions of the arguments. The kernel's are read
    off its launch; the reference's are read one operation at a time and differ only in the
    arrangement of the exponent, which is immaterial on real scores. -/
theorem algebraic : Cert.algebraic_KernelIdeal_ReferenceIdeal := by
  intro m ρ m' ρ' hpre hagree
  refine ⟨_, _, Cert.KernelIdeal.RegionValue.run m ρ, ?_⟩
  refine (θ_run Cert.ReferenceIdeal.defs _ _).mono (fun _ h c => ?_)
    (Cert.ReferenceIdeal.Value.run (F := Ideal) m' ρ')
  obtain ⟨hX, hY, hB⟩ := real_of_finite_inputs _ _ _ (hpre c)
  have hreal := scores_real _ _ _ hX (fun q => hY (ValueIdx.ix3 (0 : Fin 1) ⟨(q 0).val, ValueIdx.idx2_lt0 q⟩ ⟨(q 1).val, ValueIdx.idx2_lt1 q⟩)) hB
  refine ⟨?_, ?_, (h c).2.2⟩
  · rw [(h c).1, Cert.ReferenceIdeal.Read.val_main_v34_eq, Cert.ReferenceIdeal.RefValue.choice_eq,
      (hagree c).1, (hagree c).2.1, (hagree c).2.2]
    exact choice_arrangements _ _ _ hreal
  · rw [(h c).2.1, Cert.ReferenceIdeal.Read.val_main_v33_eq, Cert.ReferenceIdeal.RefValue.value_eq,
      (hagree c).1, (hagree c).2.1, (hagree c).2.2]
    exact value_arrangements _ _ _ hreal

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
